-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1000000x64 : Shape := ⟨2, ![1000000, 64]⟩
abbrev S160x128 : Shape := ⟨2, ![160, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S128x32 .f32) (main_arg8 : FVec F S32 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg7 : FVec F S128x32 .f32) (main_arg8 : FVec F S32 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1000000x32 .f32) (main_arg1 : FVec F S1000000x64 .f32) (main_arg2 : FVec F S1000000x64 .f32) (main_arg3 : FVec F S160x128 .f32) (main_arg4 : FVec F S128 .f32) (main_arg5 : FVec F S128 .f32) (main_arg6 : FVec F S128 .f32) (main_arg7 : FVec F S128x32 .f32) (main_arg8 : FVec F S32 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S160x128 .f32 := Host.absf main_arg3
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg4 main_arg5 main_arg6 main_arg7 main_arg8 main_v13 main_v16
-- ==== Kernel.lean ====
abbrev S1000000x32 : Shape := ⟨2, ![1000000, 32]⟩
abbrev S1000000x64 : Shape := ⟨2, ![1000000, 64]⟩
abbrev S160x128 : Shape := ⟨2, ![160, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S64x128 : Shape := ⟨2, ![64, 128]⟩
abbrev S8000x32 : Shape := ⟨2, ![8000, 32]⟩
abbrev S8000x64 : Shape := ⟨2, ![8000, 64]⟩
abbrev S8000x128 : Shape := ⟨2, ![8000, 128]⟩
abbrev S1x128 : Shape := ⟨2, ![1, 128]⟩
abbrev S8000 : Shape := ⟨1, ![8000]⟩
abbrev S8000x1 : Shape := ⟨2, ![8000, 1]⟩
abbrev S1x32 : Shape := ⟨2, ![1, 32]⟩

abbrev nBuf : Space → Nat
  | .hbm => 13
  | .vmem => 16
  | .smem => 0
  | _ => 0

abbrev bufTy : (tb : Table) → Fin (tcTables nBuf tb) → BufTy
  | .hbm, ⟨0, _⟩ => ⟨S1000000x32, .f32⟩
  | .hbm, ⟨1, _⟩ => ⟨S1000000x64, .f32⟩
  | .hbm, ⟨2, _⟩ => ⟨S1000000x64, .f32⟩
  | .hbm, ⟨3, _⟩ => ⟨S160x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x128, .f32⟩
  | .hbm, ⟨10, _⟩ => ⟨S64x128, .f32⟩
  | .hbm, ⟨11, _⟩ => ⟨S64x128, .f32⟩
  | .hbm, ⟨12, _⟩ => ⟨S1000000x32, .f32⟩
  | .local _ .vmem, ⟨0, _⟩ => ⟨S8000x32, .f32⟩
  | .local _ .vmem, ⟨1, _⟩ => ⟨S8000x32, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S32x128, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x32, .f32⟩
  | .local _ .vmem, ⟨13, _⟩ => ⟨S32, .f32⟩
  | .local _ .vmem, ⟨14, _⟩ => ⟨S8000x32, .f32⟩
  | .local _ .vmem, ⟨15, _⟩ => ⟨S8000x32, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S160x128_S32x128_0_0 : S160x128.Slices ![0, 0] S32x128
  slices_S160x128_S64x128_32_0 : S160x128.Slices ![32, 0] S64x128
  slices_S160x128_S64x128_96_0 : S160x128.Slices ![96, 0] S64x128
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  dot_S8000x32_S32x128_S8000x128_1_0_0_1_n_n_wf : DotDims.WF S8000x32 S32x128 S8000x128 [1] [0] [0] [1] [] []
  dot_S8000x64_S64x128_S8000x128_1_0_0_1_n_n_wf : DotDims.WF S8000x64 S64x128 S8000x128 [1] [0] [0] [1] [] []
  dot_S8000x128_S128x32_S8000x32_1_0_0_1_n_n_wf : DotDims.WF S8000x128 S128x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1000000x32.size a
  hwx0_0 : ∀ i : grid0.Coords, EltTy.bits .f32 = 32 ∨ (Rect.block (s := S1000000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .f32 = 32 ∨ (Rect.block (s := S128x32) S128x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x32.size a ≤ S1000000x32.size a
  hwx0_11 : ∀ i : grid0.Coords, EltTy.bits .f32 = 32 ∨ (Rect.block (s := S1000000x32) S8000x32.size (cc0_transform_11 i) (hinb0_11 i)).WholeWords (EltTy.packing .f32)

variable [Facts₀]

def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S8000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S1000000x64 : Shape := ⟨2, ![1000000, 64]⟩
abbrev S160x128 : Shape := ⟨2, ![160, 128]⟩
abbrev S128 : Shape := ⟨1, ![128]⟩
abbrev S128x32 : Shape := ⟨2, ![128, 32]⟩
abbrev S32 : Shape := ⟨1, ![32]⟩
abbrev S1000000x160 : Shape := ⟨2, ![1000000, 160]⟩
abbrev S1000000x128 : Shape := ⟨2, ![1000000, 128]⟩
abbrev S1x128 : Shape := ⟨2, ![1, 128]⟩
abbrev S_ : Shape := ⟨0, ![]⟩
abbrev S1000000 : Shape := ⟨1, ![1000000]⟩
abbrev S1000000x1 : Shape := ⟨2, ![1000000, 1]⟩
abbrev S1x32 : Shape := ⟨2, ![1, 32]⟩

abbrev nBuf : Space → Nat
  | .hbm => 50
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x64, .f32⟩
  | .hbm, ⟨2, _⟩ => ⟨S1000000x64, .f32⟩
  | .hbm, ⟨3, _⟩ => ⟨S160x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S1000000x160, .f32⟩
  | .hbm, ⟨10, _⟩ => ⟨S1000000x128, .f32⟩
  | .hbm, ⟨11, _⟩ => ⟨S1x128, .f32⟩
  | .hbm, ⟨12, _⟩ => ⟨S1000000x128, .f32⟩
  | .hbm, ⟨13, _⟩ => ⟨S1000000x128, .f32⟩
  | .hbm, ⟨14, _⟩ => ⟨S_, .f32⟩
  | .hbm, ⟨15, _⟩ => ⟨S1000000, .f32⟩
  | .hbm, ⟨16, _⟩ => ⟨S1000000x1, .f32⟩
  | .hbm, ⟨17, _⟩ => ⟨S_, .f32⟩
  | .hbm, ⟨18, _⟩ => ⟨S1000000x1, .f32⟩
  | .hbm, ⟨19, _⟩ => ⟨S1000000x1, .f32⟩
  | .hbm, ⟨20, _⟩ => ⟨S1000000x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000, .f32⟩
  | .hbm, ⟨25, _⟩ => ⟨S1000000x1, .f32⟩
  | .hbm, ⟨26, _⟩ => ⟨S_, .f32⟩
  | .hbm, ⟨27, _⟩ => ⟨S1000000x1, .f32⟩
  | .hbm, ⟨28, _⟩ => ⟨S1000000x1, .f32⟩
  | .hbm, ⟨29, _⟩ => ⟨S1000000x128, .f32⟩
  | .hbm, ⟨30, _⟩ => ⟨S1000000x128, .f32⟩
  | .hbm, ⟨31, _⟩ => ⟨S_, .f32⟩
  | .hbm, ⟨32, _⟩ => ⟨S1000000x1, .f32⟩
  | .hbm, ⟨33, _⟩ => ⟨S1000000x1, .f32⟩
  | .hbm, ⟨34, _⟩ => ⟨S1000000x1, .f32⟩
  | .hbm, ⟨35, _⟩ => ⟨S1000000x128, .f32⟩
  | .hbm, ⟨36, _⟩ => ⟨S1000000x128, .f32⟩
  | .hbm, ⟨37, _⟩ => ⟨S1x128, .f32⟩
  | .hbm, ⟨38, _⟩ => ⟨S1000000x128, .f32⟩
  | .hbm, ⟨39, _⟩ => ⟨S1000000x128, .f32⟩
  | .hbm, ⟨40, _⟩ => ⟨S1x128, .f32⟩
  | .hbm, ⟨41, _⟩ => ⟨S1000000x128, .f32⟩
  | .hbm, ⟨42, _⟩ => ⟨S1000000x128, .f32⟩
  | .hbm, ⟨43, _⟩ => ⟨S_, .f32⟩
  | .hbm, ⟨44, _⟩ => ⟨S1000000x128, .f32⟩
  | .hbm, ⟨45, _⟩ => ⟨S1000000x128, .f32⟩
  | .hbm, ⟨46, _⟩ => ⟨S1000000x32, .f32⟩
  | .hbm, ⟨47, _⟩ => ⟨S1x32, .f32⟩
  | .hbm, ⟨48, _⟩ => ⟨S1000000x32, .f32⟩
  | .hbm, ⟨49, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  concatenates_S1000000x32_S1000000x64_S1000000x64_S1000000x160_d1 : Shape.Concatenates [S1000000x32, S1000000x64, S1000000x64] S1000000x160 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  dot_S1000000x160_S160x128_S1000000x128_1_0_0_1_n_n_wf : DotDims.WF S1000000x160 S160x128 S1000000x128 [1] [0] [0] [1] [] []
  dot_S1000000x128_S128x32_S1000000x32_1_0_0_1_n_n_wf : DotDims.WF S1000000x128 S128x32 S1000000x32 [1] [0] [0] [1] [] []

variable [Facts₀]

def dot_S1000000x160_S160x128_S1000000x128_1_0_0_1_n_n : DotDims S1000000x160 S160x128 S1000000x128 where
  lhsContracting := [1]
  rhsContracting := [0]
  lhsNonContracting := [0]
  rhsNonContracting := [1]
  lhsBatch := []
  rhsBatch := []
  wf := dot_S1000000x160_S160x128_S1000000x128_1_0_0_1_n_n_wf
def dot_S1000000x128_S128x32_S1000000x32_1_0_0_1_n_n : DotDims S1000000x128 S128x32 S1000000x32 where
  lhsContracting := [1]
  rhsContracting := [0]
  lhsNonContracting := [0]
  rhsNonContracting := [1]
  lhsBatch := []
  rhsBatch := []
  wf := dot_S1000000x128_S128x32_S1000000x32_1_0_0_1_n_n_wf

class Facts : Prop extends Facts₀ where

variable [Facts]
-- ==== Proof.EdgeMlpSpec.lean ====
/-
  The edge-update network as ONE function of its argument arrays, index by index, on the extended reals.

  For edge `r` and output feature `c`:
    pre r j   = Σ_{k<32} E[r,k]·W1[k,j] + Σ_{k<64} S[r,k]·W1[32+k,j] + Σ_{k<64} R[r,k]·W1[96+k,j] + b1[j]      (j < 128)
    μ r       = (Σ_j pre r j) / 128
    σ² r      = (Σ_j (pre r j − μ r)²) / 128
    act r j   = max ((pre r j − μ r) · rsqrt (σ² r + ε) · γ[j] + β[j]) 0
    out r c   = Σ_j act r j · W2[j,c] + b2[c]
  with 128 and ε the two float words both programs print, read as the extended reals they denote.

  The first layer is written in the three-block form. A program that instead contracts the row
  [E[r,·] | S[r,·] | R[r,·]] of length 160 with the whole of W1 computes the same `pre`: a sum over
  `Fin 160` is the sum of its three consecutive blocks (`sum_three_blocks`), and a three-piece
  concatenation along axis 1 read at column `k`, `32 + k` or `96 + k` is the first, second or third piece at
  column `k` (`concat3_fst`, `concat3_snd`, `concat3_thd`). Only commutativity and associativity of `+` are
  used, which hold on all of the extended reals: no finiteness is needed anywhere.
-/
import Idealize.ShloMosaic.PureOps.Ideal
import Idealize.ShloMosaic.PureOps.Ideal.Laws
import Idealize.ShloMosaic.Lib.ValueIdx
import Idealize.ShloMosaic.Lib.Pipeline.Value

noncomputable section

namespace Cert.EdgeMlp

open Idealize.ShloMosaic Idealize.ShloMosaic.ValueIdx

/-! ## A sum over 160 terms is the sum of its blocks of 32, 64 and 64 -/

theorem sum_three_blocks {M : Type*} [AddCommMonoid M] (f : Fin 160 → M) :
    ∑ k, f k = (∑ k : Fin 32, f ⟨k.val, by have := k.isLt; omega⟩)
      + (∑ k : Fin 64, f ⟨32 + k.val, by have := k.isLt; omega⟩)
      + ∑ k : Fin 64, f ⟨96 + k.val, by have := k.isLt; omega⟩ := by
  have h1 : ∑ k : Fin (96 + 64), f k
      = (∑ i : Fin 96, f (Fin.castAdd 64 i)) + ∑ i : Fin 64, f (Fin.natAdd 96 i) :=
    Fin.sum_univ_add (a := 96) (b := 64) fun k => f k
  have h2 : ∑ i : Fin (32 + 64), f (Fin.castAdd 64 i)
      = (∑ i : Fin 32, f (Fin.castAdd 64 (Fin.castAdd 64 i))) + ∑ i : Fin 64, f (Fin.castAdd 64 (Fin.natAdd 32 i)) :=
    Fin.sum_univ_add (a := 32) (b := 64) fun i => f (Fin.castAdd 64 i)
  exact h1.trans (congrArg (· + _) h2)

/-! ## The three-piece concatenation along the columns, read at a column of each piece -/

section Concat
variable {α : Type}

abbrev SE : Shape := ⟨2, ![1000000, 32]⟩
abbrev SN : Shape := ⟨2, ![1000000, 64]⟩
abbrev SX : Shape := ⟨2, ![1000000, 160]⟩

theorem concat3_fst (E : SE.Idx → α) (S R : SN.Idx → α)
    (h : Shape.Concatenates [SE, SN, SN] SX 1) (r : Fin 1000000) (k : Fin 32) :
    concatenate SX 1 [⟨SE, E⟩, ⟨SN, S⟩, ⟨SN, R⟩] h (ix2 r ⟨k.val, by have := k.isLt; omega⟩) = E (ix2 r k) :=
  concatenate_apply_piece (t := SX) 1 [⟨SE, E⟩, ⟨SN, S⟩, ⟨SN, R⟩] h _ 0 (by show 0 < 3; omega) SE E rfl rfl 0 rfl (ix2 r k)
    (fun b hb => by
      match b with
      | ⟨0, _⟩ => rfl
      | ⟨1, _⟩ => exact absurd rfl hb)
    (by show 0 + k.val = k.val; omega)

theorem concat3_snd (E : SE.Idx → α) (S R : SN.Idx → α)
    (h : Shape.Concatenates [SE, SN, SN] SX 1) (r : Fin 1000000) (k : Fin 64) :
    concatenate SX 1 [⟨SE, E⟩, ⟨SN, S⟩, ⟨SN, R⟩] h (ix2 r ⟨32 + k.val, by have := k.isLt; omega⟩) = S (ix2 r k) :=
  concatenate_apply_piece (t := SX) 1 [⟨SE, E⟩, ⟨SN, S⟩, ⟨SN, R⟩] h _ 1 (by show 1 < 3; omega) SN S rfl rfl 32 rfl (ix2 r k)
    (fun b hb => by
      match b with
      | ⟨0, _⟩ => rfl
      | ⟨1, _⟩ => exact absurd rfl hb)
    rfl

theorem concat3_thd (E : SE.Idx → α) (S R : SN.Idx → α)
    (h : Shape.Concatenates [SE, SN, SN] SX 1) (r : Fin 1000000) (k : Fin 64) :
    concatenate SX 1 [⟨SE, E⟩, ⟨SN, S⟩, ⟨SN, R⟩] h (ix2 r ⟨96 + k.val, by have := k.isLt; omega⟩) = R (ix2 r k) :=
  concatenate_apply_piece (t := SX) 1 [⟨SE, E⟩, ⟨SN, S⟩, ⟨SN, R⟩] h _ 2 (by show 2 < 3; omega) SN R rfl rfl 96 rfl (ix2 r k)
    (fun b hb => by
      match b with
      | ⟨0, _⟩ => rfl
      | ⟨1, _⟩ => exact absurd rfl hb)
    rfl

end Concat

/-! ## The network, row by row -/

/-- The two float words both programs print for `128.0` and for the variance's `ε`, as the extended reals they denote. -/
abbrev width : EReal := Ideal.ofBits .f32 0x43000000#32
abbrev eps : EReal := Ideal.ofBits .f32 0x3727C5AC#32

/-- One entry of the first layer before normalisation: the three block products summed, plus the bias. -/
def preact (e : Fin 32 → EReal) (s r : Fin 64 → EReal) (w : Fin 160 → EReal) (b : EReal) : EReal :=
  (∑ k : Fin 32, e k * w ⟨k.val, by have := k.isLt; omega⟩)
    + (∑ k : Fin 64, s k * w ⟨32 + k.val, by have := k.isLt; omega⟩)
    + (∑ k : Fin 64, r k * w ⟨96 + k.val, by have := k.isLt; omega⟩) + b

/-- A row's mean and its (biased) variance about that mean. -/
def rowMean (h : Fin 128 → EReal) : EReal := Ideal.div (∑ j, h j) width
def rowVar (h : Fin 128 → EReal) : EReal := Ideal.div (∑ j, (h j - rowMean h) * (h j - rowMean h)) width

/-- The normalised, scaled, shifted and rectified row. -/
def rowAct (h g b : Fin 128 → EReal) (j : Fin 128) : EReal :=
  max ((h j - rowMean h) * Ideal.rsqrt (rowVar h + eps) * g j + b j) 0

/-- The second layer at one output feature. -/
def rowOut (a w : Fin 128 → EReal) (b : EReal) : EReal := (∑ j, a j * w j) + b

/-- Edge `r`'s row of the first layer, before normalisation, from the argument arrays. -/
def preRow (E : SE.Idx → EReal) (S R : SN.Idx → EReal) (W1 : (⟨2, ![160, 128]⟩ : Shape).Idx → EReal)
    (b1 : (⟨1, ![128]⟩ : Shape).Idx → EReal) (r : Fin 1000000) (j : Fin 128) : EReal :=
  preact (fun k => E (ix2 r k)) (fun k => S (ix2 r k)) (fun k => R (ix2 r k)) (fun k => W1 (ix2 k j)) (b1 (ix1 j))

/-- The whole network at output index `i = (edge, feature)`. -/
def edgeUpdate (E : SE.Idx → EReal) (S R : SN.Idx → EReal) (W1 : (⟨2, ![160, 128]⟩ : Shape).Idx → EReal)
    (b1 g b : (⟨1, ![128]⟩ : Shape).Idx → EReal) (W2 : (⟨2, ![128, 32]⟩ : Shape).Idx → EReal)
    (b2 : (⟨1, ![32]⟩ : Shape).Idx → EReal) : SE.Idx → EReal := fun i =>
  rowOut (rowAct (preRow E S R W1 b1 (i 0)) (fun j => g (ix1 j)) (fun j => b (ix1 j)))
    (fun j => W2 (ix2 j (i 1))) (b2 (ix1 (i 1)))

end Cert.EdgeMlp

end
-- ==== Proof.LibColumn.lean ====
/-
  Two layout readings for a row statistic kept as a column: a length-`a` vector viewed as an `[a, 1]` column, and an
  `[a, 1]` column broadcast across `b` columns. Both are stated at an index given by its coordinates.
-/
import Idealize.ShloMosaic.Lib.ValueIdx
import Idealize.ShloMosaic.Lib.Pipeline.Value

namespace Cert.LibColumn

open Idealize.ShloMosaic Idealize.ShloMosaic.ValueIdx

variable {α : Type}

/-- An `[a]` vector cast to the column `[a, 1]` reads, at `(p, u)`, the operand at `p`, whatever the unit coordinate `u`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  One grid point of the kernel, read at an index. The body's result for a block of 8000 edges is a chain of pure
  terms of the eleven blocks it loads (the generated skeleton's payloads); at row `p` and output feature `q` of the
  block it is the edge-update network's row functions (Proof/EdgeMlpSpec.lean) of the block's pieces: the three
  products into a zero accumulator are sums over their contracted coordinate, the two lane reductions from zero are the
  row sums, a row statistic kept as a column and broadcast back is that row's statistic, a changed float format is
  the identity on the extended reals, and the bias, gain and shift vectors broadcast over the rows are read at the
  feature's coordinate.
-/
import proofs.«163908_j10222022164572_1_alg».proof.Proof.Gen.KernelIdeal.Skeleton
import proofs.«163908_j10222022164572_1_alg».proof.Proof.EdgeMlpSpec
import proofs.«163908_j10222022164572_1_alg».proof.Proof.LibColumn
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.EdgeMlp Cert.LibColumn

/-! ## The three matrix products at an index -/

theorem lhs_e_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_e_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
theorem rhs_e_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_e_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl
/-- Into the zero accumulator, entry (p, j) of the product is the sum over the 32 contracted coordinates. -/
theorem matmul_e_apply (l : FVec Ideal S8000x32 .bf16) (r : FVec Ideal S32x128 .bf16) (p : Fin 8000) (j : Fin 128) :
    matmul dot_S8000x32_S32x128_S8000x128_1_0_0_1_n_n none l r (constant (F := Ideal) S8000x128 .f32 0x00000000#32) (ix2 p j)
      = ∑ k : Fin 32, l (ix2 p k) * r (ix2 k j) := by
  simp only [matmul]
  rw [Ideal.matmul_constant_zero_apply, ← Equiv.sum_comp (ValueIdx.contrEquiv1 dot_S8000x32_S32x128_S8000x128_1_0_0_1_n_n 32 rfl rfl).symm]
  refine Finset.sum_congr rfl fun k _ => ?_
  have hk := ValueIdx.contrEquiv1_symm_val dot_S8000x32_S32x128_S8000x128_1_0_0_1_n_n 32 rfl rfl k
  have el : dot_S8000x32_S32x128_S8000x128_1_0_0_1_n_n.lhsIdx (ix2 p j) ((ValueIdx.contrEquiv1 dot_S8000x32_S32x128_S8000x128_1_0_0_1_n_n 32 rfl rfl).symm k) = ix2 p k := funext fun a => Fin.ext (by
    match a with
    | ⟨0, _⟩ => exact lhs_e_0 _ _
    | ⟨1, _⟩ => exact (lhs_e_1 _ _).trans hk)
  have er : dot_S8000x32_S32x128_S8000x128_1_0_0_1_n_n.rhsIdx (ix2 p j) ((ValueIdx.contrEquiv1 dot_S8000x32_S32x128_S8000x128_1_0_0_1_n_n 32 rfl rfl).symm k) = ix2 k j := funext fun a => Fin.ext (by
    match a with
    | ⟨0, _⟩ => exact (rhs_e_0 _ _).trans hk
    | ⟨1, _⟩ => exact rhs_e_1 _ _)
  rw [el, er]

theorem lhs_n_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_n_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_n_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_n_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl
/-- Into the zero accumulator, entry (p, j) of the product is the sum over the 64 contracted coordinates. -/
theorem matmul_n_apply (l : FVec Ideal S8000x64 .bf16) (r : FVec Ideal S64x128 .bf16) (p : Fin 8000) (j : Fin 128) :
    matmul dot_S8000x64_S64x128_S8000x128_1_0_0_1_n_n none l r (constant (F := Ideal) S8000x128 .f32 0x00000000#32) (ix2 p j)
      = ∑ k : Fin 64, l (ix2 p k) * r (ix2 k j) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p j) ((ValueIdx.contrEquiv1 dot_S8000x64_S64x128_S8000x128_1_0_0_1_n_n 64 rfl rfl).symm k) = ix2 p k := funext fun a => Fin.ext (by
    match a with
    | ⟨0, _⟩ => exact lhs_n_0 _ _
    | ⟨1, _⟩ => exact (lhs_n_1 _ _).trans hk)
  have er : dot_S8000x64_S64x128_S8000x128_1_0_0_1_n_n.rhsIdx (ix2 p j) ((ValueIdx.contrEquiv1 dot_S8000x64_S64x128_S8000x128_1_0_0_1_n_n 64 rfl rfl).symm k) = ix2 k j := funext fun a => Fin.ext (by
    match a with
    | ⟨0, _⟩ => exact (rhs_n_0 _ _).trans hk
    | ⟨1, _⟩ => exact rhs_n_1 _ _)
  rw [el, er]

theorem lhs_o_0 (i : S8000x32.Idx) (q : dot_S8000x128_S128x32_S8000x32_1_0_0_1_n_n.contr.Idx) :
    (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem lhs_o_1 (i : S8000x32.Idx) (q : dot_S8000x128_S128x32_S8000x32_1_0_0_1_n_n.contr.Idx) :
    (dot_S8000x128_S128x32_S8000x32_1_0_0_1_n_n.lhsIdx i q 1).val = (q ⟨0, by decide⟩).val :=
  dot_S8000x128_S128x32_S8000x32_1_0_0_1_n_n.lhsIdx_val_of_single rfl i q
theorem rhs_o_0 (i : S8000x32.Idx) (q : dot_S8000x128_S128x32_S8000x32_1_0_0_1_n_n.contr.Idx) :
    (dot_S8000x128_S128x32_S8000x32_1_0_0_1_n_n.rhsIdx i q 0).val = (q ⟨0, by decide⟩).val :=
  dot_S8000x128_S128x32_S8000x32_1_0_0_1_n_n.rhsIdx_val_of_single rfl i q
theorem rhs_o_1 (i : S8000x32.Idx) (q : dot_S8000x128_S128x32_S8000x32_1_0_0_1_n_n.contr.Idx) :
    (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl
/-- Into the zero accumulator, entry (p, j) of the product is the sum over the 128 contracted coordinates. -/
theorem matmul_o_apply (l : FVec Ideal S8000x128 .bf16) (r : FVec Ideal S128x32 .bf16) (p : Fin 8000) (j : Fin 32) :
    matmul dot_S8000x128_S128x32_S8000x32_1_0_0_1_n_n none l r (constant (F := Ideal) S8000x32 .f32 0x00000000#32) (ix2 p j)
      = ∑ k : Fin 128, l (ix2 p k) * r (ix2 k j) := by
  simp only [matmul]
  rw [Ideal.matmul_constant_zero_apply, ← Equiv.sum_comp (ValueIdx.contrEquiv1 dot_S8000x128_S128x32_S8000x32_1_0_0_1_n_n 128 rfl rfl).symm]
  refine Finset.sum_congr rfl fun k _ => ?_
  have hk := ValueIdx.contrEquiv1_symm_val dot_S8000x128_S128x32_S8000x32_1_0_0_1_n_n 128 rfl rfl k
  have el : dot_S8000x128_S128x32_S8000x32_1_0_0_1_n_n.lhsIdx (ix2 p j) ((ValueIdx.contrEquiv1 dot_S8000x128_S128x32_S8000x32_1_0_0_1_n_n 128 rfl rfl).symm k) = ix2 p k := funext fun a => Fin.ext (by
    match a with
    | ⟨0, _⟩ => exact lhs_o_0 _ _
    | ⟨1, _⟩ => exact (lhs_o_1 _ _).trans hk)
  have er : dot_S8000x128_S128x32_S8000x32_1_0_0_1_n_n.rhsIdx (ix2 p j) ((ValueIdx.contrEquiv1 dot_S8000x128_S128x32_S8000x32_1_0_0_1_n_n 128 rfl rfl).symm k) = ix2 k j := funext fun a => Fin.ext (by
    match a with
    | ⟨0, _⟩ => exact (rhs_o_0 _ _).trans hk
    | ⟨1, _⟩ => exact rhs_o_1 _ _)
  rw [el, er]

/-! ## Lane sums and broadcast vectors at an index -/

/-- A lane sum from the zero word, at row `p`, is the sum of the row's 128 entries. -/
theorem rowSum128 (src : FVec Ideal S8000x128 .f32) (h : S8000x128.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 128, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- A length-128 vector viewed as one row and broadcast over the 8000 rows reads, at (p, j), its entry j. -/
theorem rowBcast128 (v : FVec Ideal S128 .f32) (h1 : S128.ShapeCasts S1x128) (h2 : S1x128.Broadcasts S8000x128)
    (p : Fin 8000) (j : Fin 128) : broadcastTo S8000x128 (shapeCast S1x128 v h1) h2 (ix2 p j) = v (ix1 j) :=
  (broadcastTo_1b_ab_apply _ h2 p j).trans (shapeCast_a_1a_apply v h1 0 j)

/-- The same for the length-32 output bias. -/
theorem rowBcast32 (v : FVec Ideal S32 .f32) (h1 : S32.ShapeCasts S1x32) (h2 : S1x32.Broadcasts S8000x32)
    (p : Fin 8000) (q : Fin 32) : broadcastTo S8000x32 (shapeCast S1x32 v h1) h2 (ix2 p q) = v (ix1 q) :=
  (broadcastTo_1b_ab_apply _ h2 p q).trans (shapeCast_a_1a_apply v h1 0 q)

/-! ## The payloads -/

variable (e : FVec Ideal S8000x32 .f32) (s r : FVec Ideal S8000x64 .f32) (we : FVec Ideal S32x128 .f32)
  (ws wr : FVec Ideal S64x128 .f32) (b1 g b : FVec Ideal S128 .f32) (w2 : FVec Ideal S128x32 .f32) (b2 : FVec Ideal S32 .f32)

/-- Row `p` of the block's first layer before normalisation, from the block's three feature pieces, the three
    weight pieces and the bias. -/
def blockPre (p : Fin 8000) (j : Fin 128) : EReal :=
  (∑ k : Fin 32, e (ix2 p k) * we (ix2 k j)) + (∑ k : Fin 64, s (ix2 p k) * ws (ix2 k j))
    + (∑ k : Fin 64, r (ix2 p k) * wr (ix2 k j)) + b1 (ix1 j)

theorem pay2_apply (p : Fin 8000) (j : Fin 128) :
    k0_pay2 (F := Ideal) e s r we ws wr b1 (ix2 p j) = blockPre e s r we ws wr b1 p j := by
  unfold k0_pay2 blockPre
  simp only [addf_apply]
  rw [matmul_e_apply, matmul_n_apply, matmul_n_apply, rowBcast128]
  simp only [truncf_apply, shapeCast_self]

/-- The row sum kept as a column and divided by the literal 128: the row's mean, at either coordinate of the column. -/
theorem pay3_apply (p : Fin 8000) (u : Fin 1) :
    k0_pay3 (F := Ideal) e s r we ws wr b1 (ix2 p u) = rowMean (blockPre e s r we ws wr b1 p) := by
  unfold k0_pay3 rowMean
  simp only [divf_apply, broadcast_apply]
  rw [shapeCast_a_a1_apply, rowSum128]
  simp only [pay2_apply]
  rfl

/-- The first layer less its row mean broadcast back over the row. -/
theorem pay5_apply (p : Fin 8000) (j : Fin 128) :
    k0_pay5 (F := Ideal) e s r we ws wr b1 (ix2 p j)
      = blockPre e s r we ws wr b1 p j - rowMean (blockPre e s r we ws wr b1 p) := by
  unfold k0_pay5
  simp only [subf_apply]
  rw [broadcastTo_a1_ab_apply, pay3_apply, pay2_apply]

/-- The row sum of the squared deviations, kept as a column and divided by 128: the row's variance. -/
theorem pay4_apply (p : Fin 8000) (u : Fin 1) :
    k0_pay4 (F := Ideal) e s r we ws wr b1 (ix2 p u) = rowVar (blockPre e s r we ws wr b1 p) := by
  unfold k0_pay4 rowVar
  simp only [divf_apply, broadcast_apply]
  rw [shapeCast_a_a1_apply, rowSum128]
  refine congrArg₂ Ideal.div (Finset.sum_congr rfl fun k _ => ?_) rfl
  simp only [mulf_apply, subf_apply]
  rw [broadcastTo_a1_ab_apply, pay3_apply, pay2_apply]

/-- The variance's ε splat over the column. -/
theorem pay6_apply (p : Fin 8000) (u : Fin 1) : k0_pay6 (F := Ideal) (ix2 p u) = eps := rfl

/-- THE STORE'S PAYLOAD at row `p`, output feature `q`, for any variance column `v`, deviation block `d` and ε column
    `c`: the rectified, scaled and shifted row `d · rsqrt (v + c)` contracted with the second weight, plus the bias. -/
theorem pay1_apply (v : FVec Ideal S8000x1 .f32) (d : FVec Ideal S8000x128 .f32) (c : FVec Ideal S8000x1 .f32)
    (p : Fin 8000) (q : Fin 32) :
    k0_pay1 (F := Ideal) v d c g b w2 b2 (ix2 p q)
      = (∑ j : Fin 128, max (d (ix2 p j) * Ideal.rsqrt (v (ix2 p (0 : Fin 1)) + c (ix2 p (0 : Fin 1))) * g (ix1 j) + b (ix1 j)) 0
            * w2 (ix2 j q)) + b2 (ix1 q) := by
  unfold k0_pay1
  simp only [addf_apply]
  rw [matmul_o_apply, rowBcast32]
  refine congrArg₂ (· + ·) (Finset.sum_congr rfl fun j _ => ?_) rfl
  simp only [truncf_apply, maximumf_apply, addf_apply, mulf_apply, broadcast_apply]
  rw [broadcastTo_a1_ab_apply, rowBcast128, rowBcast128]
  show max (d (ix2 p j) * Ideal.rsqrt (v (ix2 p (0 : Fin 1)) + c (ix2 p (0 : Fin 1))) * g (ix1 j) + b (ix1 j))
      (Ideal.ofBits .f32 0x00000000#32) * w2 (ix2 j q) = _
  rw [Ideal.ofBits_zero_f32]

/-- THE BLOCK'S RESULT at row `p`, output feature `q`: the network's row functions of the block's pieces. -/
theorem block_apply (p : Fin 8000) (q : Fin 32) :
    k0_pay1 (F := Ideal) (k0_pay4 e s r we ws wr b1) (k0_pay5 e s r we ws wr b1) (k0_pay6 (F := Ideal)) g b w2 b2 (ix2 p q)
      = rowOut (rowAct (blockPre e s r we ws wr b1 p) (fun j => g (ix1 j)) (fun j => b (ix1 j)))
          (fun j => w2 (ix2 j q)) (b2 (ix1 q)) := by
  rw [pay1_apply]
  unfold rowOut rowAct
  simp only [pay4_apply, pay5_apply, pay6_apply]

end Cert.KernelIdeal.BlockValue

end
-- ==== Proof.KernelArray.lean ====
/-
  From the grid's blocks to the whole array. Grid point `t` works on edges `8000·t … 8000·t + 7999`: its three feature
  blocks are those rows of the three feature arrays, the three first-layer weight pieces are the row ranges 0–31, 32–95
  and 96–159 of the first weight (cut out on the host before the call), and the remaining operands are whole arrays.
  So what point `t` writes back is rows `8000·t …` of the edge-update network of the argument arrays
  (Proof/EdgeMlpSpec.lean, by the block's value in Proof/KernelBlock.lean); the 125 blocks tile the output, which
  therefore ends holding the network of the arguments everywhere.
-/
import proofs.«163908_j10222022164572_1_alg».proof.Proof.Gen.KernelIdeal.Value
import proofs.«163908_j10222022164572_1_alg».proof.Proof.KernelBlock
import Idealize.ShloMosaic.Lib.StableHlo.Run
import Idealize.ShloMosaic.Lib.Pipeline.Value

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Cert.EdgeMlp
open Idealize.ShloMosaic.Pipeline (Dat)

variable (m : (ℓ : Loc nD τ sig) → Buf (Elt Ideal) ℓ) (ρ : Dev nD → PrngReg)

/-! ## The first weight's three row ranges, as the region finds them -/

theorem w1e_apply (c : Dev nD) (k : Fin 32) (j : Fin 128) :
    (V m c main_v0 : S32x128.Idx → EReal) (ix2 k j)
      = (m ((c : Thread nD τ).loc main_arg3) : S160x128.Idx → EReal) (ix2 ⟨k.val, by have := k.isLt; omega⟩ j) := by
  have e : (V m c main_v0 : S32x128.Idx → EReal)
      = extractStridedSlice S32x128 ![0, 0] (m ((c : Thread nD τ).loc main_arg3) : S160x128.Idx → EReal)
          Facts₀.slices_S160x128_S32x128_0_0 := by
    dsimp only [Gen.V, Gen.hostOps0]; after_results
  rw [e]
  exact extractStridedSlice_apply _ _ _ _ _ (fun a => by
    match a with
    | ⟨0, _⟩ => show k.val = 0 + k.val; omega
    | ⟨1, _⟩ => show j.val = 0 + j.val; omega)

theorem w1s_apply (c : Dev nD) (k : Fin 64) (j : Fin 128) :
    (V m c main_v1 : S64x128.Idx → EReal) (ix2 k j)
      = (m ((c : Thread nD τ).loc main_arg3) : S160x128.Idx → EReal) (ix2 ⟨32 + k.val, by have := k.isLt; omega⟩ j) := by
  have e : (V m c main_v1 : S64x128.Idx → EReal)
      = extractStridedSlice S64x128 ![32, 0] (m ((c : Thread nD τ).loc main_arg3) : S160x128.Idx → EReal)
          Facts₀.slices_S160x128_S64x128_32_0 := by
    dsimp only [Gen.V, Gen.hostOps0]; after_results
  rw [e]
  exact extractStridedSlice_apply _ _ _ _ _ (fun a => by
    match a with
    | ⟨0, _⟩ => rfl
    | ⟨1, _⟩ => show j.val = 0 + j.val; omega)

theorem w1r_apply (c : Dev nD) (k : Fin 64) (j : Fin 128) :
    (V m c main_v2 : S64x128.Idx → EReal) (ix2 k j)
      = (m ((c : Thread nD τ).loc main_arg3) : S160x128.Idx → EReal) (ix2 ⟨96 + k.val, by have := k.isLt; omega⟩ j) := by
  have e : (V m c main_v2 : S64x128.Idx → EReal)
      = extractStridedSlice S64x128 ![96, 0] (m ((c : Thread nD τ).loc main_arg3) : S160x128.Idx → EReal)
          Facts₀.slices_S160x128_S64x128_96_0 := by
    dsimp only [Gen.V, Gen.hostOps0]; after_results
  rw [e]
  exact extractStridedSlice_apply _ _ _ _ _ (fun a => by
    match a with
    | ⟨0, _⟩ => rfl
    | ⟨1, _⟩ => show j.val = 0 + j.val; omega)

/-! ## The index maps over the grid: the three feature windows and the output move with the point, the rest stay -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- The edge that row `p` of point `t`'s blocks is. -/
def edgeOf (t : Fin cfg0.N) (p : Fin 8000) : Fin 1000000 :=
  ⟨t.val * 8000 + p.val, by have := lt_of_lt_of_eq t.isLt N_0; have := p.isLt; omega⟩

/-! ## Each window's block at a point, read at an index of the array it is cut from -/

theorem blk0_apply (c : Dev nD) (t : Fin cfg0.N) (p : Fin 8000) (k : Fin 32) :
    (iblk m c 0 t : S8000x32.Idx → EReal) (ix2 p k) = (V m c main_arg0 : S1000000x32.Idx → EReal) (ix2 (edgeOf t p) k) := by
  obtain ⟨h0, h1⟩ := idx0 t
  show (V m c main_arg0 : S1000000x32.Idx → EReal) (((cfg0.win 0).blk t).view.emb (ix2 p k)) = _
  refine congrArg _ (funext fun a => Fin.ext ?_)
  match a with
  | ⟨0, _⟩ => show win0_0.index t (0 : Fin 2) * 8000 + 1 * p.val = t.val * 8000 + p.val; rw [h0]; omega
  | ⟨1, _⟩ => show win0_0.index t (1 : Fin 2) * 32 + 1 * k.val = k.val; rw [h1]; omega

theorem blk1_apply (c : Dev nD) (t : Fin cfg0.N) (p : Fin 8000) (k : Fin 64) :
    (iblk m c 1 t : S8000x64.Idx → EReal) (ix2 p k) = (V m c main_arg1 : S1000000x64.Idx → EReal) (ix2 (edgeOf t p) k) := by
  obtain ⟨h0, h1⟩ := idx1 t
  show (V m c main_arg1 : S1000000x64.Idx → EReal) (((cfg0.win 1).blk t).view.emb (ix2 p k)) = _
  refine congrArg _ (funext fun a => Fin.ext ?_)
  match a with
  | ⟨0, _⟩ => show win0_1.index t (0 : Fin 2) * 8000 + 1 * p.val = t.val * 8000 + p.val; rw [h0]; omega
  | ⟨1, _⟩ => show win0_1.index t (1 : Fin 2) * 64 + 1 * k.val = k.val; rw [h1]; omega

theorem blk2_apply (c : Dev nD) (t : Fin cfg0.N) (p : Fin 8000) (k : Fin 64) :
    (iblk m c 2 t : S8000x64.Idx → EReal) (ix2 p k) = (V m c main_arg2 : S1000000x64.Idx → EReal) (ix2 (edgeOf t p) k) := by
  obtain ⟨h0, h1⟩ := idx2 t
  show (V m c main_arg2 : S1000000x64.Idx → EReal) (((cfg0.win 2).blk t).view.emb (ix2 p k)) = _
  refine congrArg _ (funext fun a => Fin.ext ?_)
  match a with
  | ⟨0, _⟩ => show win0_2.index t (0 : Fin 2) * 8000 + 1 * p.val = t.val * 8000 + p.val; rw [h0]; omega
  | ⟨1, _⟩ => show win0_2.index t (1 : Fin 2) * 64 + 1 * k.val = k.val; rw [h1]; omega

theorem blk3_apply (c : Dev nD) (t : Fin cfg0.N) (a : Fin 32) (b : Fin 128) :
    (iblk m c 3 t : S32x128.Idx → EReal) (ix2 a b) = (V m c main_v0 : S32x128.Idx → EReal) (ix2 a b) := by
  obtain ⟨h0, h1⟩ := idx3 t
  show (V m c main_v0 : S32x128.Idx → EReal) (((cfg0.win 3).blk t).view.emb (ix2 a b)) = _
  refine congrArg _ (funext fun ax => Fin.ext ?_)
  match ax with
  | ⟨0, _⟩ => show win0_3.index t (0 : Fin 2) * 32 + 1 * a.val = a.val; rw [h0]; omega
  | ⟨1, _⟩ => show win0_3.index t (1 : Fin 2) * 128 + 1 * b.val = b.val; rw [h1]; omega

theorem blk4_apply (c : Dev nD) (t : Fin cfg0.N) (a : Fin 64) (b : Fin 128) :
    (iblk m c 4 t : S64x128.Idx → EReal) (ix2 a b) = (V m c main_v1 : S64x128.Idx → EReal) (ix2 a b) := by
  obtain ⟨h0, h1⟩ := idx4 t
  show (V m c main_v1 : S64x128.Idx → EReal) (((cfg0.win 4).blk t).view.emb (ix2 a b)) = _
  refine congrArg _ (funext fun ax => Fin.ext ?_)
  match ax with
  | ⟨0, _⟩ => show win0_4.index t (0 : Fin 2) * 64 + 1 * a.val = a.val; rw [h0]; omega
  | ⟨1, _⟩ => show win0_4.index t (1 : Fin 2) * 128 + 1 * b.val = b.val; rw [h1]; omega

theorem blk5_apply (c : Dev nD) (t : Fin cfg0.N) (a : Fin 64) (b : Fin 128) :
    (iblk m c 5 t : S64x128.Idx → EReal) (ix2 a b) = (V m c main_v2 : S64x128.Idx → EReal) (ix2 a b) := by
  obtain ⟨h0, h1⟩ := idx5 t
  show (V m c main_v2 : S64x128.Idx → EReal) (((cfg0.win 5).blk t).view.emb (ix2 a b)) = _
  refine congrArg _ (funext fun ax => Fin.ext ?_)
  match ax with
  | ⟨0, _⟩ => show win0_5.index t (0 : Fin 2) * 64 + 1 * a.val = a.val; rw [h0]; omega
  | ⟨1, _⟩ => show win0_5.index t (1 : Fin 2) * 128 + 1 * b.val = b.val; rw [h1]; omega

theorem blk6_apply (c : Dev nD) (t : Fin cfg0.N) (a : Fin 128) :
    (iblk m c 6 t : S128.Idx → EReal) (ix1 a) = (V m c main_arg4 : S128.Idx → EReal) (ix1 a) := by
  have h0 := idx6 t
  show (V m c main_arg4 : S128.Idx → EReal) (((cfg0.win 6).blk t).view.emb (ix1 a)) = _
  refine congrArg _ (funext fun ax => Fin.ext ?_)
  match ax with
  | ⟨0, _⟩ => show win0_6.index t (0 : Fin 1) * 128 + 1 * a.val = a.val; rw [h0]; omega

theorem blk7_apply (c : Dev nD) (t : Fin cfg0.N) (a : Fin 128) :
    (iblk m c 7 t : S128.Idx → EReal) (ix1 a) = (V m c main_arg5 : S128.Idx → EReal) (ix1 a) := by
  have h0 := idx7 t
  show (V m c main_arg5 : S128.Idx → EReal) (((cfg0.win 7).blk t).view.emb (ix1 a)) = _
  refine congrArg _ (funext fun ax => Fin.ext ?_)
  match ax with
  | ⟨0, _⟩ => show win0_7.index t (0 : Fin 1) * 128 + 1 * a.val = a.val; rw [h0]; omega

theorem blk8_apply (c : Dev nD) (t : Fin cfg0.N) (a : Fin 128) :
    (iblk m c 8 t : S128.Idx → EReal) (ix1 a) = (V m c main_arg6 : S128.Idx → EReal) (ix1 a) := by
  have h0 := idx8 t
  show (V m c main_arg6 : S128.Idx → EReal) (((cfg0.win 8).blk t).view.emb (ix1 a)) = _
  refine congrArg _ (funext fun ax => Fin.ext ?_)
  match ax with
  | ⟨0, _⟩ => show win0_8.index t (0 : Fin 1) * 128 + 1 * a.val = a.val; rw [h0]; omega

theorem blk9_apply (c : Dev nD) (t : Fin cfg0.N) (a : Fin 128) (b : Fin 32) :
    (iblk m c 9 t : S128x32.Idx → EReal) (ix2 a b) = (V m c main_arg7 : S128x32.Idx → EReal) (ix2 a b) := by
  obtain ⟨h0, h1⟩ := idx9 t
  show (V m c main_arg7 : S128x32.Idx → EReal) (((cfg0.win 9).blk t).view.emb (ix2 a b)) = _
  refine congrArg _ (funext fun ax => Fin.ext ?_)
  match ax with
  | ⟨0, _⟩ => show win0_9.index t (0 : Fin 2) * 128 + 1 * a.val = a.val; rw [h0]; omega
  | ⟨1, _⟩ => show win0_9.index t (1 : Fin 2) * 32 + 1 * b.val = b.val; rw [h1]; omega

theorem blk10_apply (c : Dev nD) (t : Fin cfg0.N) (a : Fin 32) :
    (iblk m c 10 t : S32.Idx → EReal) (ix1 a) = (V m c main_arg8 : S32.Idx → EReal) (ix1 a) := by
  have h0 := idx10 t
  show (V m c main_arg8 : S32.Idx → EReal) (((cfg0.win 10).blk t).view.emb (ix1 a)) = _
  refine congrArg _ (funext fun ax => Fin.ext ?_)
  match ax with
  | ⟨0, _⟩ => show win0_10.index t (0 : Fin 1) * 32 + 1 * a.val = a.val; rw [h0]; omega

/-! ## One point's block of the network -/

/-- Blocks that are the stated rows and row ranges of the arrays give, at row `p` and feature `q`, the network of the
    arrays at the edge the row is. -/
theorem point_value (E : S1000000x32.Idx → EReal) (S R : S1000000x64.Idx → EReal) (W1 : S160x128.Idx → EReal)
    (B1 G B : S128.Idx → EReal) (W2 : S128x32.Idx → EReal) (B2 : S32.Idx → EReal)
    (e : FVec Ideal S8000x32 .f32) (s r : FVec Ideal S8000x64 .f32) (we : FVec Ideal S32x128 .f32)
    (ws wr : FVec Ideal S64x128 .f32) (b1 g b : FVec Ideal S128 .f32) (w2 : FVec Ideal S128x32 .f32) (b2 : FVec Ideal S32 .f32)
    (row : Fin 8000 → Fin 1000000)
    (he : ∀ p k, e (ix2 p k) = E (ix2 (row p) k)) (hs : ∀ p k, s (ix2 p k) = S (ix2 (row p) k))
    (hr : ∀ p k, r (ix2 p k) = R (ix2 (row p) k))
    (hwe : ∀ (k : Fin 32) j, we (ix2 k j) = W1 (ix2 ⟨k.val, by have := k.isLt; omega⟩ j))
    (hws : ∀ (k : Fin 64) j, ws (ix2 k j) = W1 (ix2 ⟨32 + k.val, by have := k.isLt; omega⟩ j))
    (hwr : ∀ (k : Fin 64) j, wr (ix2 k j) = W1 (ix2 ⟨96 + k.val, by have := k.isLt; omega⟩ j))
    (hb1 : ∀ j, b1 (ix1 j) = B1 (ix1 j)) (hg : ∀ j, g (ix1 j) = G (ix1 j)) (hb : ∀ j, b (ix1 j) = B (ix1 j))
    (hw2 : ∀ j q, w2 (ix2 j q) = W2 (ix2 j q)) (hb2 : ∀ q, b2 (ix1 q) = B2 (ix1 q)) (p : Fin 8000) (q : Fin 32) :
    k0_pay1 (F := Ideal) (k0_pay4 e s r we ws wr b1) (k0_pay5 e s r we ws wr b1) (k0_pay6 (F := Ideal)) g b w2 b2 (ix2 p q)
      = edgeUpdate E S R W1 B1 G B W2 B2 (ix2 (row p) q) := by
  rw [block_apply]
  have hpre : blockPre e s r we ws wr b1 p = preRow E S R W1 B1 (row p) := by
    funext j
    unfold blockPre preRow preact
    simp only [he, hs, hr, hwe, hws, hwr, hb1]
  unfold edgeUpdate
  rw [hpre]
  simp only [hg, hb, hw2, hb2]

/-! ## What a point writes back, the cover, and the array after the run -/

theorem hz2 : (![0, 0] : Fin 2 → Nat) = fun _ => 0 := funext fun a => by fin_cases a <;> rfl
theorem hz1 : (![0] : Fin 1 → Nat) = fun _ => 0 := funext fun a => by fin_cases a; rfl

/-- The network of the argument arrays as launched on core `c`. -/
abbrev result (c : Dev nD) : Buf (Elt Ideal) ((c : Thread nD τ).loc main_v3) :=
  edgeUpdate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- WHAT POINT `t` WRITES BACK is block `t` of the network of the argument arrays. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz2]
  simp only [View.ld_unit_zero (S := S8000x32) hz2, View.ld_unit_zero (S := S8000x64) hz2, View.ld_unit_zero (S := S32x128) hz2,
    View.ld_unit_zero (S := S64x128) hz2, View.ld_unit_zero (S := S128) hz1, View.ld_unit_zero (S := S128x32) hz2,
    View.ld_unit_zero (S := S32) hz1]
  funext y
  obtain ⟨p, q, rfl⟩ : ∃ (p : Fin 8000) (q : Fin 32), y = ix2 p q := ⟨y 0, y 1, eq_ix2 (n0 := 8000) (n1 := 32) y⟩
  show k0_pay1 (F := Ideal)
      (k0_pay4 (iblk m c 0 t) (iblk m c 1 t) (iblk m c 2 t) (iblk m c 3 t) (iblk m c 4 t) (iblk m c 5 t) (iblk m c 6 t))
      (k0_pay5 (iblk m c 0 t) (iblk m c 1 t) (iblk m c 2 t) (iblk m c 3 t) (iblk m c 4 t) (iblk m c 5 t) (iblk m c 6 t))
      (k0_pay6 (F := Ideal)) (iblk m c 7 t) (iblk m c 8 t) (iblk m c 9 t) (iblk m c 10 t) (ix2 p q)
    = result m c (((cfg0.win 11).blk t).view.emb (ix2 p q))
  have hemb : ((cfg0.win 11).blk t).view.emb (ix2 p q) = ix2 (edgeOf t p) q := by
    obtain ⟨h0, h1⟩ := idx11 t
    funext a; apply Fin.ext
    match a with
    | ⟨0, _⟩ => show win0_11.index t (0 : Fin 2) * 8000 + 1 * p.val = t.val * 8000 + p.val; rw [h0]; omega
    | ⟨1, _⟩ => show win0_11.index t (1 : Fin 2) * 32 + 1 * q.val = q.val; rw [h1]; omega
  rw [hemb]
  exact point_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (edgeOf t)
    (fun p k => (blk0_apply m c t p k).trans (congrFun (V_main_arg0 m c) _))
    (fun p k => (blk1_apply m c t p k).trans (congrFun (V_main_arg1 m c) _))
    (fun p k => (blk2_apply m c t p k).trans (congrFun (V_main_arg2 m c) _))
    (fun k j => (blk3_apply m c t k j).trans (w1e_apply m c k j))
    (fun k j => (blk4_apply m c t k j).trans (w1s_apply m c k j))
    (fun k j => (blk5_apply m c t k j).trans (w1r_apply m c k j))
    (fun j => (blk6_apply m c t j).trans (congrFun (V_main_arg4 m c) _))
    (fun j => (blk7_apply m c t j).trans (congrFun (V_main_arg5 m c) _))
    (fun j => (blk8_apply m c t j).trans (congrFun (V_main_arg6 m c) _))
    (fun j q => (blk9_apply m c t j q).trans (congrFun (V_main_arg7 m c) _))
    (fun q => (blk10_apply m c t q).trans (congrFun (V_main_arg8 m c) _)) p q

/-- An index of the output array is in point `t`'s block iff each coordinate is in the block's range on its axis. -/
theorem mem_blk (t : Fin cfg0.N) (i : S1000000x32.Idx) :
    i ∈ ((cfg0.win 11).blk t).view.set ↔ ∀ a : Fin 2, win0_11.index t a * S8000x32.size a ≤ (i a).val
      ∧ (i a).val < win0_11.index t a * S8000x32.size a + S8000x32.size a := by
  show i ∈ ((View.whole main_v3).slice (win0_11.rect t)).set ↔ _
  rw [View.set_slice_whole, Rect.mem_set_unit]
  exact Iff.rfl

/-- Every edge's row is in the block of the point `edge / 8000`: the 125 blocks tile the output. -/
theorem cover (i : S1000000x32.Idx) :
    ∃ t : Fin cfg0.N, (cfg0.win 11).flush t = true ∧ i ∈ ((cfg0.win 11).blk t).view.set := by
  have hi0 : (i 0).val < 1000000 := (i 0).isLt
  have hi1 : (i 1).val < 32 := (i 1).isLt
  have hN : (i 0).val / 8000 < cfg0.N := by rw [show cfg0.N = 125 from N_0]; omega
  obtain ⟨h0, h1⟩ := idx11 ⟨(i 0).val / 8000, hN⟩
  refine ⟨⟨(i 0).val / 8000, hN⟩, flush0_11 _, ?_⟩
  rw [mem_blk]
  intro a
  match a with
  | ⟨0, _⟩ =>
    show win0_11.index ⟨(i 0).val / 8000, hN⟩ (0 : Fin 2) * 8000 ≤ (i 0).val
      ∧ (i 0).val < win0_11.index ⟨(i 0).val / 8000, hN⟩ (0 : Fin 2) * 8000 + 8000
    rw [h0]; show (i 0).val / 8000 * 8000 ≤ (i 0).val ∧ (i 0).val < (i 0).val / 8000 * 8000 + 8000; omega
  | ⟨1, _⟩ =>
    show win0_11.index ⟨(i 0).val / 8000, hN⟩ (1 : Fin 2) * 32 ≤ (i 1).val
      ∧ (i 1).val < win0_11.index ⟨(i 0).val / 8000, hN⟩ (1 : Fin 2) * 32 + 32
    rw [h1]; omega

/-- THE ARRAY after the run: the network of the argument arrays. -/
theorem final (c : Dev nD) : (dats m 0 c).arrAt 11 cfg0.N = result m c :=
  (dats m 0 c).arrAt_eq_of_cover 11 (result m c) (fun t _ => flushed_eq m c t) cover

/-- The kernel's run re-posted: the output array at the network of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.RefIsSpec.lean ====
/-
  The reference program's result is the edge-update network of its arguments (Proof/EdgeMlpSpec.lean), index by
  index: its host operations are read one at a time — the concatenated row contracted with the whole first weight
  is the three block products (a sum over 160 columns is the sum of its blocks of 32, 64 and 64 columns, each column
  of the concatenation being a column of one piece), its two `reduce add`s from zero are the row sums, its quotients
  by the literal 128 the mean and the variance, its `rsqrt`, products, sum and `maximum` against zero the rectified
  normalised row, and its second contraction and bias the output.
-/
import proofs.«163908_j10222022164572_1_alg».proof.Proof.Gen.ReferenceIdeal.Read
import proofs.«163908_j10222022164572_1_alg».proof.Proof.EdgeMlpSpec

noncomputable section

namespace Cert.ReferenceIdeal.RefValue

open Cert.ReferenceIdeal Cert.ReferenceIdeal.Gen Cert.ReferenceIdeal.Read
open Idealize.ShloMosaic Idealize.ShloMosaic.ValueIdx Cert.EdgeMlp

variable (x0 : (⟨S1000000x32, .f32⟩ : BufTy).Contents (Elt Ideal)) (x1 x2 : (⟨S1000000x64, .f32⟩ : BufTy).Contents (Elt Ideal))
  (x3 : (⟨S160x128, .f32⟩ : BufTy).Contents (Elt Ideal)) (x4 x5 x6 : (⟨S128, .f32⟩ : BufTy).Contents (Elt Ideal))
  (x7 : (⟨S128x32, .f32⟩ : BufTy).Contents (Elt Ideal)) (x8 : (⟨S32, .f32⟩ : BufTy).Contents (Elt Ideal))

/-! ## The first layer -/

theorem lidx1_eq (i : S1000000x128.Idx) (k : Fin 160) : lidx_main_v1 i k = ix2 (n0 := 1000000) (n1 := 160) (i 0) k :=
  funext fun a => Fin.ext (by match a with | ⟨0, _⟩ => rfl | ⟨1, _⟩ => rfl)
theorem ridx1_eq (i : S1000000x128.Idx) (k : Fin 160) : ridx_main_v1 i k = ix2 (n0 := 160) (n1 := 128) k (i 1) :=
  funext fun a => Fin.ext (by match a with | ⟨0, _⟩ => rfl | ⟨1, _⟩ => rfl)
theorem bias1_idx (i : S1000000x128.Idx) : idx_main_v2 (idx_main_v3 i) = ix1 (n := 128) (i 1) :=
  funext fun a => Fin.ext (by match a with | ⟨0, _⟩ => rfl)

/-- The sum of the first contraction and the broadcast bias, at (edge, hidden feature), is the first layer's row. -/
theorem v4_eq (i : S1000000x128.Idx) :
    val_main_v4 (F := Ideal) x0 x1 x2 x3 x4 i = preRow x0 x1 x2 x3 x4 (i 0) (i 1) := by
  rw [val_main_v4_apply, val_main_v1_apply, val_main_v3_apply, val_main_v2_apply, sum_three_blocks]
  unfold preRow preact val_main_v0
  simp only [lidx1_eq, ridx1_eq, bias1_idx, Ideal.addf_def]
  refine congrArg₂ (· + ·) (congrArg₂ (· + ·) (congrArg₂ (· + ·) ?_ ?_) ?_) rfl
  · exact Finset.sum_congr rfl fun k _ => congrArg (· * _) (concat3_fst x0 x1 x2 _ (i 0) k)
  · exact Finset.sum_congr rfl fun k _ => congrArg (· * _) (concat3_snd x0 x1 x2 _ (i 0) k)
  · exact Finset.sum_congr rfl fun k _ => congrArg (· * _) (concat3_thd x0 x1 x2 _ (i 0) k)

/-! ## The normalisation -/

/-- The row sum from zero, divided by the literal 128: the row's mean. -/
theorem v8_eq (i' : S1000000x1.Idx) :
    val_main_v8 (F := Ideal) x0 x1 x2 x3 x4 i' = rowMean (preRow x0 x1 x2 x3 x4 (i' 0)) := by
  rw [val_main_v8_apply, val_main_v6_apply, val_main_v5_apply, val_main_v7_apply]
  simp only [val_main_cst_0_apply, val_main_cst_apply, Ideal.hostDivf_def, Ideal.ofBits_def, Ideal.ofBits_zero_f32,
    zero_add, v4_eq]
  rfl

/-- The sum of the squared deviations from that mean, divided by 128: the row's variance. -/
theorem v15_eq (i' : S1000000x1.Idx) :
    val_main_v15 (F := Ideal) x0 x1 x2 x3 x4 i' = rowVar (preRow x0 x1 x2 x3 x4 (i' 0)) := by
  rw [val_main_v15_apply, val_main_v13_apply, val_main_v12_apply, val_main_v14_apply]
  simp only [val_main_v11_apply, val_main_v10_apply, val_main_v9_apply, v8_eq, v4_eq, val_main_cst_2_apply,
    val_main_cst_1_apply, Ideal.hostDivf_def, Ideal.ofBits_def, Ideal.ofBits_zero_f32, zero_add, Ideal.mulf_def,
    Ideal.subf_def]
  rfl

theorem gain_idx (q : S1000000x128.Idx) : idx_main_v23 (idx_main_v24 q) = ix1 (n := 128) (q 1) :=
  funext fun a => Fin.ext (by match a with | ⟨0, _⟩ => rfl)
theorem shift_idx (q : S1000000x128.Idx) : idx_main_v26 (idx_main_v27 q) = ix1 (n := 128) (q 1) :=
  funext fun a => Fin.ext (by match a with | ⟨0, _⟩ => rfl)

/-- The deviation times `rsqrt (variance + ε)`, scaled, shifted, and its maximum with zero: the rectified row. -/
theorem v29_eq (q : S1000000x128.Idx) :
    val_main_v29 (F := Ideal) x0 x1 x2 x3 x4 x5 x6 q
      = rowAct (preRow x0 x1 x2 x3 x4 (q 0)) (fun j => x5 (ix1 j)) (fun j => x6 (ix1 j)) (q 1) := by
  rw [val_main_v29_apply, val_main_v28_apply, val_main_v25_apply, val_main_v22_apply, val_main_v17_apply,
    val_main_v16_apply, val_main_v21_apply, val_main_v20_apply, val_main_v19_apply, val_main_v18_apply,
    val_main_v24_apply, val_main_v23_apply, val_main_v27_apply, val_main_v26_apply, val_main_call0_v0_apply]
  simp only [v8_eq, v15_eq, v4_eq, gain_idx, shift_idx, val_main_cst_3_apply, val_main_call0_cst_apply,
    Ideal.maximumf_def, Ideal.addf_def, Ideal.mulf_def, Ideal.subf_def, Ideal.hostUnary_rsqrt_def, Ideal.ofBits_def,
    Ideal.ofBits_zero_f32]
  rfl

/-! ## The second layer -/

theorem lidx2_eq (i : S1000000x32.Idx) (k : Fin 128) : lidx_main_v30 i k = ix2 (n0 := 1000000) (n1 := 128) (i 0) k :=
  funext fun a => Fin.ext (by match a with | ⟨0, _⟩ => rfl | ⟨1, _⟩ => rfl)
theorem ridx2_eq (i : S1000000x32.Idx) (k : Fin 128) : ridx_main_v30 i k = ix2 (n0 := 128) (n1 := 32) k (i 1) :=
  funext fun a => Fin.ext (by match a with | ⟨0, _⟩ => rfl | ⟨1, _⟩ => rfl)
theorem bias2_idx (i : S1000000x32.Idx) : idx_main_v31 (idx_main_v32 i) = ix1 (n := 32) (i 1) :=
  funext fun a => Fin.ext (by match a with | ⟨0, _⟩ => rfl)

/-- The reference's last stage is the edge-update network of the arguments. -/
theorem v33_eq :
    val_main_v33 (F := Ideal) x0 x1 x2 x3 x4 x5 x6 x7 x8 = edgeUpdate x0 x1 x2 x3 x4 x5 x6 x7 x8 := by
  funext i
  rw [val_main_v33_apply, val_main_v30_apply, val_main_v32_apply, val_main_v31_apply]
  simp only [v29_eq, lidx2_eq, ridx2_eq, bias2_idx, Ideal.addf_def]
  unfold edgeUpdate rowOut
  exact congrArg₂ (· + ·) (Finset.sum_congr rfl fun k _ => rfl) rfl

end Cert.ReferenceIdeal.RefValue

end
-- ==== Proof.lean ====
/-
  The edge-update step of a message-passing network over 1 000 000 edges: each edge's 32 features and its sender's and
  receiver's 64 features pass through a 160 → 128 linear layer, a layer normalisation over the 128 hidden features
  (mean, biased variance, `rsqrt (variance + ε)`, gain and shift), a rectifier, and a 128 → 32 linear layer.

  The kernel works on 8000 edges per grid point and never forms the concatenated 160-wide row: it multiplies the
  three feature blocks by the row ranges 0–31, 32–95 and 96–159 of the first weight and adds the three products. The
  reference concatenates the three feature arrays and contracts the 160-wide rows with the whole first weight. On the
  extended reals the two agree because a sum over 160 columns is the sum of its blocks of 32, 64 and 64 columns
  (addition is commutative and associative there, infinities included), each column of the concatenation being a
  column of one piece; everything after the first layer is the same chain of operations on both sides — the same two
  float words for 128 and ε, the same division, `rsqrt` and maximum with zero — and a change of float format is the
  identity. No finiteness of the inputs is used.

  Both programs' results are stated as ONE function of the argument arrays (`Cert.EdgeMlp.edgeUpdate`,
  Proof/EdgeMlpSpec.lean): the reference's by reading its host operations one at a time (Proof/RefIsSpec.lean), the
  kernel's by reading one grid point's block at an index (Proof/KernelBlock.lean) and tiling the output with the 125
  blocks (Proof/KernelArray.lean). The three frames are the generated frame runs; the idealization rewrote nothing,
  so `preserves` is trivial.
-/
import proofs.«163908_j10222022164572_1_alg».proof.Defs
import proofs.«163908_j10222022164572_1_alg».proof.Proof.Gen.Kernel
import proofs.«163908_j10222022164572_1_alg».proof.Proof.Gen.Kernel.Skeleton
import proofs.«163908_j10222022164572_1_alg».proof.Proof.Gen.Kernel.Launch
import proofs.«163908_j10222022164572_1_alg».proof.Proof.Gen.Kernel.Points
import proofs.«163908_j10222022164572_1_alg».proof.Proof.Gen.Kernel.Frame
import proofs.«163908_j10222022164572_1_alg».proof.Proof.Gen.KernelIdeal
import proofs.«163908_j10222022164572_1_alg».proof.Proof.Gen.KernelIdeal.Skeleton
import proofs.«163908_j10222022164572_1_alg».proof.Proof.Gen.KernelIdeal.Launch
import proofs.«163908_j10222022164572_1_alg».proof.Proof.Gen.KernelIdeal.Points
import proofs.«163908_j10222022164572_1_alg».proof.Proof.Gen.KernelIdeal.Frame
import proofs.«163908_j10222022164572_1_alg».proof.Proof.Gen.ReferenceIdeal
import proofs.«163908_j10222022164572_1_alg».proof.Proof.Gen.Pre_finite_inputs
import proofs.«163908_j10222022164572_1_alg».proof.Proof.Gen.KernelIdeal.Value
import proofs.«163908_j10222022164572_1_alg».proof.Proof.Gen.ReferenceIdeal.Run
import proofs.«163908_j10222022164572_1_alg».proof.Proof.Gen.ReferenceIdeal.Read
import proofs.«163908_j10222022164572_1_alg».proof.Proof.KernelArray
import proofs.«163908_j10222022164572_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments, the kernel's output array and the reference's result both end at
    the edge-update network of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.v33_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
